-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S16777216x2 : Shape := ⟨2, ![16777216, 2]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S16777216x2 : S_.BroadcastsInDim S16777216x2 (![] : Fin 0 → Fin S16777216x2.rank)
  reducesTo_S16777216x2_S_d0_1 : S16777216x2.ReducesTo [0, 1] S_

variable [Facts]

def fn {F : FTy → Type} [FloatOps F] (main_arg0 : FVec F S32x4096 .f32) (main_arg1 : FVec F S16777216x2 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S16777216x2 .f32 := Host.absf main_arg1
  let main_cst_0 : FVec F S_ .f32 := constant S_ .f32 0x7F800000#32
  let main_v5 : FVec F S16777216x2 .f32 := broadcastInDim S16777216x2 ![] bcast_S_S16777216x2 main_cst_0
  let main_v6 : IVec S16777216x2 1 := cmpf .olt main_v4 main_v5
  let main_c_1 : IVec S_ 1 := constantI S_ 1 1#1
  let main_v7 : IVec S_ 1 := (fun x v => Host.reduce IntOp.andi x v reducesTo_S16777216x2_S_d0_1 h_S_) main_v6 main_c_1
  let main_v8 : IVec S_ 1 := andi main_v3 main_v7
  main_v8
-- ==== Kernel.lean ====
abbrev S32x4096 : Shape := ⟨2, ![32, 4096]⟩
abbrev S16777216x2 : Shape := ⟨2, ![16777216, 2]⟩
abbrev S1x4096 : Shape := ⟨2, ![1, 4096]⟩
abbrev S4096 : Shape := ⟨1, ![4096]⟩
abbrev S4096x1 : Shape := ⟨2, ![4096, 1]⟩
abbrev S262144x2 : Shape := ⟨2, ![262144, 2]⟩
abbrev S4096x64x2 : Shape := ⟨3, ![4096, 64, 2]⟩
abbrev S4096x64x1 : Shape := ⟨3, ![4096, 64, 1]⟩
abbrev S4096x64 : Shape := ⟨2, ![4096, 64]⟩
abbrev S512x1 : Shape := ⟨2, ![512, 1]⟩
abbrev S512x64 : Shape := ⟨2, ![512, 64]⟩
abbrev S262144 : Shape := ⟨1, ![262144]⟩

abbrev nBuf : Space → Nat
  | .hbm => 13
  | .vmem => 8
  | .smem => 0
  | _ => 0

abbrev bufTy : (tb : Table) → Fin (tcTables nBuf tb) → BufTy
  | .hbm, ⟨0, _⟩ => ⟨S32x4096, .f32⟩
  | .hbm, ⟨1, _⟩ => ⟨S16777216x2, .f32⟩
  | .hbm, ⟨2, _⟩ => ⟨S1x4096, .f32⟩
  | .hbm, ⟨3, _⟩ => ⟨S4096, .f32⟩
  | .hbm, ⟨4, _⟩ => ⟨S4096x1, .f32⟩
  | .hbm, ⟨5, _⟩ => ⟨S262144x2, .f32⟩
  | .hbm, ⟨6, _⟩ => ⟨S4096x64x2, .f32⟩
  | .hbm, ⟨7, _⟩ => ⟨S4096x64x1, .f32⟩
  | .hbm, ⟨8, _⟩ => ⟨S4096x64, .f32⟩
  | .hbm, ⟨9, _⟩ => ⟨S4096x64x1, .f32⟩
  | .hbm, ⟨10, _⟩ => ⟨S4096x64, .f32⟩
  | .hbm, ⟨11, _⟩ => ⟨S4096x64, .f32⟩
  | .hbm, ⟨12, _⟩ => ⟨S262144, .f32⟩
  | .local _ .vmem, ⟨0, _⟩ => ⟨S512x1, .f32⟩
  | .local _ .vmem, ⟨1, _⟩ => ⟨S512x1, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x4096_S1x4096_0_0 : S32x4096.Slices ![0, 0] S1x4096
  shapeCasts_S1x4096_S4096 : S1x4096.ShapeCasts S4096
  shapeCasts_S4096_S4096x1 : S4096.ShapeCasts S4096x1
  slices_S16777216x2_S262144x2_0_0 : S16777216x2.Slices ![0, 0] S262144x2
  shapeCasts_S262144x2_S4096x64x2 : S262144x2.ShapeCasts S4096x64x2
  slices_S4096x64x2_S4096x64x1_0_0_0 : S4096x64x2.Slices ![0, 0, 0] S4096x64x1
  shapeCasts_S4096x64x1_S4096x64 : S4096x64x1.ShapeCasts S4096x64
  slices_S4096x64x2_S4096x64x1_0_0_1 : S4096x64x2.Slices ![0, 0, 1] S4096x64x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  shapeCasts_S4096x64_S262144 : S4096x64.ShapeCasts S262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .f32 = 32 ∨ (Rect.block (s := S4096x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)

variable [Facts₀]

abbrev win0_0 : Pipeline.Window sig grid0 :=
  Pipeline.Window.ofSpec (Memref.whole main_v2) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S16777216x2 : Shape := ⟨2, ![16777216, 2]⟩
abbrev S262144x2 : Shape := ⟨2, ![262144, 2]⟩
abbrev S4096x64x2 : Shape := ⟨3, ![4096, 64, 2]⟩
abbrev S4096x64x1 : Shape := ⟨3, ![4096, 64, 1]⟩
abbrev S4096x64 : Shape := ⟨2, ![4096, 64]⟩
abbrev S1x4096 : Shape := ⟨2, ![1, 4096]⟩
abbrev S4096 : Shape := ⟨1, ![4096]⟩
abbrev S4096x1 : Shape := ⟨2, ![4096, 1]⟩
abbrev S_ : Shape := ⟨0, ![]⟩
abbrev S262144 : Shape := ⟨1, ![262144]⟩

abbrev nBuf : Space → Nat
  | .hbm => 22
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S16777216x2, .f32⟩
  | .hbm, ⟨2, _⟩ => ⟨S262144x2, .f32⟩
  | .hbm, ⟨3, _⟩ => ⟨S4096x64x2, .f32⟩
  | .hbm, ⟨4, _⟩ => ⟨S4096x64x1, .f32⟩
  | .hbm, ⟨5, _⟩ => ⟨S4096x64, .f32⟩
  | .hbm, ⟨6, _⟩ => ⟨S4096x64x1, .f32⟩
  | .hbm, ⟨7, _⟩ => ⟨S4096x64, .f32⟩
  | .hbm, ⟨8, _⟩ => ⟨S1x4096, .f32⟩
  | .hbm, ⟨9, _⟩ => ⟨S4096, .f32⟩
  | .hbm, ⟨10, _⟩ => ⟨S4096x1, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S262144, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  slices_S16777216x2_S262144x2_0_0 : S16777216x2.Slices ![0, 0] S262144x2
  shapeCasts_S262144x2_S4096x64x2 : S262144x2.ShapeCasts S4096x64x2
  slices_S4096x64x2_S4096x64x1_0_0_0 : S4096x64x2.Slices ![0, 0, 0] S4096x64x1
  shapeCasts_S4096x64x1_S4096x64 : S4096x64x1.ShapeCasts S4096x64
  slices_S4096x64x2_S4096x64x1_0_0_1 : S4096x64x2.Slices ![0, 0, 1] S4096x64x1
  slices_S32x4096_S1x4096_0_0 : S32x4096.Slices ![0, 0] S1x4096
  shapeCasts_S1x4096_S4096 : S1x4096.ShapeCasts S4096
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  shapeCasts_S4096x64_S262144 : S4096x64.ShapeCasts S262144

variable [Facts₀]

class Facts : Prop extends Facts₀ where

variable [Facts]
-- ==== Proof.Law.lean ====
/-
  The quantity both programs compute, as one function on the extended reals, and the law between their two
  spellings of it.

  For a feature value `x`, a centre `c` and a width parameter `s` the membership degree is
  `exp (-(x - c)² / 2 · s²)` (the width MULTIPLIES: it is not a division by `s²`). One program writes the
  halved negated square as `(0 - d²) · ½`, the other as `(-d²) / 2`. On the extended reals `0 - y = -y` for
  every `y`, infinite ones included, and dividing by the nonzero real `2` IS multiplying by `½` for every `y`,
  infinite ones included; so the two spellings agree everywhere and no finiteness of the inputs is used.
  The only float literals met are `½` and `2`, both exact in binary: their patterns denote those reals.
-/
import Idealize.ShloMosaic.PureOps.Ideal
import Idealize.ShloMosaic.PureOps.Ideal.Laws
import Idealize.ShloMosaic.Lib.ValueIdx

noncomputable section

namespace Cert.Fuzzy

open Idealize.ShloMosaic Idealize.ShloMosaic.ValueIdx

/-- The single-precision pattern `0x3F000000` denotes one half. -/
theorem ofBits_half : Ideal.ofBits .f32 0x3F000000#32 = ((1 / 2 : ℝ) : EReal) := by
  simp [Ideal.ofBits, Ideal.ieee, -EReal.coe_mul]; norm_num

/-- The single-precision pattern `0x40000000` denotes two. -/
theorem ofBits_two : Ideal.ofBits .f32 0x40000000#32 = ((2 : ℝ) : EReal) := by
  simp [Ideal.ofBits, Ideal.ieee, -EReal.coe_mul]; norm_num

/-- Membership degree of `x` in the set of centre `c` and width parameter `s`, halving by a product:
    `exp (((0 - (x - c)²) · ½) · s²)`. -/
def member (x c s : EReal) : EReal :=
  Ideal.exp (((Ideal.ofBits .f32 0x00000000#32 - (x - c) * (x - c)) * Ideal.ofBits .f32 0x3F000000#32) * (s * s))

/-- Subtracting from zero and then taking half by a product is negating and then taking half by a quotient,
    for every extended real. -/
theorem zero_sub_mul_half (y : EReal) :
    (Ideal.ofBits .f32 0x00000000#32 - y) * Ideal.ofBits .f32 0x3F000000#32
      = Ideal.div (-y) (Ideal.ofBits .f32 0x40000000#32) := by
  rw [Ideal.ofBits_zero_f32, ofBits_half, ofBits_two, Ideal.div_coe (by norm_num : (2 : ℝ) ≠ 0), zero_sub]

/-- The same degree, halving by a quotient: `exp ((-(x - c)² / 2) · s²)`. -/
theorem member_eq_quotient (x c s : EReal) :
    member x c s = Ideal.exp (Ideal.div (-((x - c) * (x - c))) (Ideal.ofBits .f32 0x40000000#32) * (s * s)) := by
  unfold member
  rw [zero_sub_mul_half]

/-- The whole table of degrees: entry `(r, k)` is the degree of feature `r`'s value — row `r` of the one-column
    array `x` — in that feature's `k`-th set, whose centre and width parameter are entry `(r, k)` of `c` and `s`. -/
def table (x : (⟨2, ![4096, 1]⟩ : Shape).Idx → EReal) (c s : (⟨2, ![4096, 64]⟩ : Shape).Idx → EReal) :
    (⟨2, ![4096, 64]⟩ : Shape).Idx → EReal :=
  fun i => member (x (ix2 (i 0) 0)) (c i) (s i)

end Cert.Fuzzy

end
-- ==== Proof.Region.lean ====
/-
  What the kernel's one region leaves in its result array, at the ideal instance.

  The region walks the 4096 features in 8 steps of 512. At step `t` it is handed rows `512 t … 512 t + 511` of three
  arrays — the one-column array of feature values, the table of centres and the table of width parameters — and
  writes back the same rows of the result. Inside a step the column of values is spread along the 64 sets of each
  row, so local entry `(p, q)` of what is written back is the membership degree of the value in local row `p` in the
  set whose centre and width parameter sit at local entry `(p, q)`. Local row `p` of step `t` is row `512 t + p` of every
  one of the four arrays, so each step writes its block of ONE whole table (`Cert.Fuzzy.table` of the three arrays),
  and the 8 blocks tile the 4096 rows: the result array ends holding that table.
-/
import proofs.«125009_j8658654069382_1_alg».proof.Proof.Gen.KernelIdeal.Frame
import proofs.«125009_j8658654069382_1_alg».proof.Proof.Law
import Idealize.ShloMosaic.Lib.Pipeline.Value
import Idealize.ShloMosaic.Lib.ValueIdx

set_option maxRecDepth 16384

noncomputable section

namespace Cert.KernelIdeal.Region

open Cert.KernelIdeal Cert.KernelIdeal.Gen Cert.Fuzzy
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body reads and writes its buffers whole: the offsets of every access are zero. -/
theorem offsets_zero : (![0, 0] : Fin 2 → Nat) = fun _ => 0 := funext fun a => by fin_cases a <;> rfl

/-- One step's result at local entry `(p, q)`: the degree of the value in local row `p` of the column block in the set
    whose centre and width parameter are local entry `(p, q)` of the other two blocks. The column is spread along the
    row before the subtraction, which is where row `p`'s single entry comes from. -/
theorem body_apply (x0 : Vec Ideal S512x1 .f32) (x1 x2 : Vec Ideal S512x64 .f32) (p : Fin 512) (q : Fin 64) :
    k0_pay1 (F := Ideal) x0 x1 x2 (ix2 p q) = member (x0 (ix2 p 0)) (x1 (ix2 p q)) (x2 (ix2 p q)) := by
  unfold k0_pay1
  show member (broadcastTo S512x64 (shapeCast S512x1 x0 shapeCasts_S512x1_S512x1) broadcasts_S512x1_S512x64 (ix2 p q))
      (shapeCast S512x64 x1 shapeCasts_S512x64_S512x64 (ix2 p q))
      (shapeCast S512x64 x2 shapeCasts_S512x64_S512x64 (ix2 p q)) = _
  rw [shapeCast_self, shapeCast_self, shapeCast_self,
    broadcastTo_apply x0 broadcasts_S512x1_S512x64 (ix2 p q) (ix2 p 0) (fun a => match a with
      | ⟨0, _⟩ => by show p.val = if (512 : Nat) = 1 then 0 else p.val; rw [if_neg (by decide)]
      | ⟨1, _⟩ => by show 0 = if (1 : Nat) = 1 then 0 else q.val; rw [if_pos rfl])]

/-- The index maps of the four arrays over the 8 steps: at every step the three inputs' block row is the result's
    block row, every block column is 0, and the block row stays below 8. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 7 ∧ win0_3.index t (1 : Fin 2) = 0 :=
  (by decide +kernel : ∀ t : Fin grid0.N, _)

/-- Every one of the 8 block rows of the result is some step's. -/
theorem index_onto : ∀ b : Fin 8, ∃ t : Fin cfg0.N, win0_3.index t = ![b.val, 0] :=
  (by decide +kernel : ∀ b : Fin 8, ∃ t : Fin grid0.N, win0_3.index t = ![b.val, 0])

/-- WHAT STEP `t` WRITES BACK is its block of the whole table of degrees, the table taken of the three arrays as the
    region finds them. Local row `p` of the step is row `512 · (block row) + p` in all four arrays, and the column of
    values has its single entry of that row at column 0. -/
theorem written_back (c : Dev nD) (t : Fin cfg0.N) :
    (dats m 0 c).flushed 3 t
      = ((cfg0.win 3).blk t).view.read (Elt Ideal) (table (V m c main_v2) (V m c main_v6) (V m c main_v8)) := by
  show (cfg0.win 3).cut (grid0.coords t) ((dats m 0 c).after 3 t) = _
  rw [after0_3]
  unfold out0_3
  rw [View.canon_unit_zero offsets_zero]
  simp only [View.ld_unit_zero (S := S512x1) offsets_zero, View.ld_unit_zero (S := S512x64) offsets_zero]
  obtain ⟨e00, e01, e10, e11, e20, e21, b3, e31⟩ := index_facts t
  funext j
  obtain ⟨p, q, rfl⟩ : ∃ (p : Fin 512) (q : Fin 64), j = ix2 p q := ⟨j 0, j 1, eq_ix2 j⟩
  refine (body_apply (iblk m c 0 t) (iblk m c 1 t) (iblk m c 2 t) p q).trans ?_
  show member (V m c main_v2 (((cfg0.win 0).blk t).view.emb (ix2 p 0)))
        (V m c main_v6 (((cfg0.win 1).blk t).view.emb (ix2 p q)))
        (V m c main_v8 (((cfg0.win 2).blk t).view.emb (ix2 p q)))
      = member (V m c main_v2 (ix2 ((((cfg0.win 3).blk t).view.emb (ix2 p q)) 0) 0))
        (V m c main_v6 (((cfg0.win 3).blk t).view.emb (ix2 p q)))
        (V m c main_v8 (((cfg0.win 3).blk t).view.emb (ix2 p q)))
  have h0 : ((cfg0.win 0).blk t).view.emb (ix2 p 0) = ix2 ((((cfg0.win 3).blk t).view.emb (ix2 p q)) 0) 0 := by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1 + 1 * 0 = 0; omega
  have h1 : ((cfg0.win 1).blk t).view.emb (ix2 p q) = ((cfg0.win 3).blk t).view.emb (ix2 p q) := by
    funext a; apply Fin.ext
    match a with
    | ⟨0, _⟩ => show win0_1.index t (0 : Fin 2) * 512 + 1 * p.val = win0_3.index t (0 : Fin 2) * 512 + 1 * p.val; omega
    | ⟨1, _⟩ => show win0_1.index t (1 : Fin 2) * 64 + 1 * q.val = win0_3.index t (1 : Fin 2) * 64 + 1 * q.val; omega
  have h2 : ((cfg0.win 2).blk t).view.emb (ix2 p q) = ((cfg0.win 3).blk t).view.emb (ix2 p q) := by
    funext a; apply Fin.ext
    match a with
    | ⟨0, _⟩ => show win0_2.index t (0 : Fin 2) * 512 + 1 * p.val = win0_3.index t (0 : Fin 2) * 512 + 1 * p.val; omega
    | ⟨1, _⟩ => show win0_2.index t (1 : Fin 2) * 64 + 1 * q.val = win0_3.index t (1 : Fin 2) * 64 + 1 * q.val; omega
  rw [h0, h1, h2]
  rfl

/-- An entry of the result array lies in step `t`'s block exactly when each coordinate lies in the block's range. -/
theorem mem_block (t : Fin cfg0.N) (i : S4096x64.Idx) :
    i ∈ ((cfg0.win 3).blk t).view.set
      ↔ ∀ a : Fin 2, win0_3.index t a * S512x64.size a ≤ (i a).val ∧ (i a).val < win0_3.index t a * S512x64.size a + S512x64.size a := by
  show i ∈ ((View.whole main_v9).slice (win0_3.rect t)).set ↔ _
  rw [View.set_slice_whole, Rect.mem_set_unit]
  exact Iff.rfl

/-- The blocks tile the array: row `r` lies in the block of the step whose block row is `r / 512`. -/
theorem covered (i : S4096x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 64 ≤ (i 1).val ∧ (i 1).val < win0_3.index t (1 : Fin 2) * 64 + 64; omega

/-- THE RESULT ARRAY after the region: the whole table of degrees of the three arrays as the region finds them. -/
theorem result_array (c : Dev nD) :
    (dats m 0 c).arrAt 3 cfg0.N = table (V m c main_v2) (V m c main_v6) (V m c main_v8) :=
  (dats m 0 c).arrAt_eq_of_cover 3 _ (fun t _ => written_back m c t) covered

end Cert.KernelIdeal.Region

end
-- ==== Proof.Inputs.lean ====
/-
  The arrays the table of degrees is taken of, as functions of the two arguments, and the flat result.

  Only row 0 of the batch of feature vectors is used: its 4096 values, stood up as a one-column array. Only the first
  262144 = 4096 · 64 rows of the parameter array are used: read as a `4096 × 64 × 2` array, entry `(r, k, 0)` is the
  centre and entry `(r, k, 1)` the width parameter of feature `r`'s `k`-th set. The result is the `4096 × 64` table of
  degrees laid out flat, row after row.
-/
import proofs.«125009_j8658654069382_1_alg».proof.Proof.Law

noncomputable section

namespace Cert.Fuzzy

open Idealize.ShloMosaic

/-- Row 0 of the batch, as a one-column array. -/
def values (x : (⟨2, ![32, 4096]⟩ : Shape).Idx → EReal) : (⟨2, ![4096, 1]⟩ : Shape).Idx → EReal :=
  shapeCast ⟨2, ![4096, 1]⟩ (shapeCast ⟨1, ![4096]⟩ (extractStridedSlice ⟨2, ![1, 4096]⟩ ![0, 0] x))

/-- The first 262144 parameter rows, one `(centre, width parameter)` pair per feature and set. -/
def pairs (w : (⟨2, ![16777216, 2]⟩ : Shape).Idx → EReal) : (⟨3, ![4096, 64, 2]⟩ : Shape).Idx → EReal :=
  shapeCast ⟨3, ![4096, 64, 2]⟩ (extractStridedSlice ⟨2, ![262144, 2]⟩ ![0, 0] w)

/-- The centres: component 0 of every pair. -/
def centres (w : (⟨2, ![16777216, 2]⟩ : Shape).Idx → EReal) : (⟨2, ![4096, 64]⟩ : Shape).Idx → EReal :=
  shapeCast ⟨2, ![4096, 64]⟩ (extractStridedSlice ⟨3, ![4096, 64, 1]⟩ ![0, 0, 0] (pairs w))

/-- The width parameters: component 1 of every pair. -/
def widths (w : (⟨2, ![16777216, 2]⟩ : Shape).Idx → EReal) : (⟨2, ![4096, 64]⟩ : Shape).Idx → EReal :=
  shapeCast ⟨2, ![4096, 64]⟩ (extractStridedSlice ⟨3, ![4096, 64, 1]⟩ ![0, 0, 1] (pairs w))

/-- The result: the table of degrees of the arguments, flat. -/
def degrees (x : (⟨2, ![32, 4096]⟩ : Shape).Idx → EReal) (w : (⟨2, ![16777216, 2]⟩ : Shape).Idx → EReal) :
    (⟨1, ![262144]⟩ : Shape).Idx → EReal :=
  shapeCast ⟨1, ![262144]⟩ (table (values x) (centres w) (widths w))

end Cert.Fuzzy

end
-- ==== Proof.KernelRun.lean ====
/-
  The kernel program's whole run, at the ideal instance: its result is the flat table of degrees of its arguments.

  Before the region the program makes, from its two arguments, the three arrays the region is handed: row 0 of the batch
  as a one-column array, and the centres and width parameters picked out of the first 262144 parameter rows. The region
  leaves the whole table of degrees of those three arrays in its result array (the region's value, proved beside this
  module). After the region the program lays that table out flat. Neither argument is written.
-/
import proofs.«125009_j8658654069382_1_alg».proof.Proof.Region
import proofs.«125009_j8658654069382_1_alg».proof.Proof.Inputs
import Idealize.ShloMosaic.Lib.StableHlo.Run

set_option maxRecDepth 16384

noncomputable section

namespace Cert.KernelIdeal.Whole

open Cert.KernelIdeal Cert.KernelIdeal.Gen Cert.Fuzzy
open Idealize.ShloMosaic Idealize.ShloMosaic.TcCoe Idealize.SL.Sem Idealize.ShloMosaic.StableHlo

variable (m : (ℓ : Loc nD τ sig) → Buf (Elt Ideal) ℓ) (ρ : Dev nD → PrngReg)

/-- The one-column array the region is handed is row 0 of the first argument. -/
theorem values_found (c : Dev nD) :
    (V m c main_v2 : S4096x1.Idx → EReal) = values (m ((c : Thread nD τ).loc main_arg0)) := by
  show StableHlo.after hostOps0 (fun b => m (c, b)) (Proc.devRef .tc main_v2) = _
  after_results
  rfl

/-- The table of centres the region is handed is component 0 of the second argument's first 262144 rows, paired. -/
theorem centres_found (c : Dev nD) :
    (V m c main_v6 : S4096x64.Idx → EReal) = centres (m ((c : Thread nD τ).loc main_arg1)) := by
  show StableHlo.after hostOps0 (fun b => m (c, b)) (Proc.devRef .tc main_v6) = _
  after_results
  rfl

/-- The table of width parameters the region is handed is component 1 of the same pairs. -/
theorem widths_found (c : Dev nD) :
    (V m c main_v8 : S4096x64.Idx → EReal) = widths (m ((c : Thread nD τ).loc main_arg1)) := by
  show StableHlo.after hostOps0 (fun b => m (c, b)) (Proc.devRef .tc main_v8) = _
  after_results
  rfl

/-- The region's result array, in terms of the arguments. -/
theorem table_found (c : Dev nD) :
    (dats m 0 c).arrAt 3 cfg0.N
      = table (values (m ((c : Thread nD τ).loc main_arg0))) (centres (m ((c : Thread nD τ).loc main_arg1)))
          (widths (m ((c : Thread nD τ).loc main_arg1))) := by
  rw [Region.result_array, values_found, centres_found, widths_found]

/-- The program's result after the line that follows the region: the table laid out flat. -/
theorem result_found (c : Dev nD) :
    Pipeline.afterTail₀ cfgs (dats m) 0 (V0 m) [hostOps1] c main_v10
      = degrees (m ((c : Thread nD τ).loc main_arg0)) (m ((c : Thread nD τ).loc main_arg1)) := by
  unfold Pipeline.afterTail₀
  show StableHlo.after hostOps1 _ (Proc.devRef .tc main_v10) = _
  after_results
  rw [Pipeline.withArrays_arr spec0 launch0.win.arr_inj c _ _ 3, table_found]
  rfl

/-- THE RUN: every weakly fair execution of the kernel program terminates with its result at the flat table of degrees
    of its arguments, and the arguments as they were. -/
theorem run : θ_run defs (onTc (τ := τ) (main (F := Ideal))) ⟨m, fun _ => 0, ρ⟩ fun r => ∀ c : Dev nD,
      r.2.mem ((c : Thread nD τ).loc main_v10)
        = degrees (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v10 (Pipeline.mem_restRefs_of main_v10 (by decide) (by decide))).trans (result_found m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.ReferenceRun.lean ====
/-
  The reference program's whole run, at the ideal instance: its result is the same flat table of degrees.

  The reference picks the centres and the width parameters out of the second argument exactly as the table's
  definition does. It spreads row 0 of the batch along the 64 sets by two broadcasts — first to a one-column array, then
  along the row — so what it subtracts the centre at `(r, k)` from is entry `(r, 0)` of the one-column array of values.
  It halves the negated square by dividing by `2`, which on the extended reals is the table's product with `½`
  (`Cert.Fuzzy.member_eq_quotient`), multiplies by the squared width parameter and takes the exponential, then lays the
  table out flat.
-/
import proofs.«125009_j8658654069382_1_alg».proof.Proof.Gen.ReferenceIdeal.Read
import proofs.«125009_j8658654069382_1_alg».proof.Proof.Inputs
import Idealize.ShloMosaic.Lib.Pipeline.Value
import Idealize.ShloMosaic.Lib.ValueIdx

noncomputable section

namespace Cert.ReferenceIdeal.Whole

open Cert.ReferenceIdeal Cert.ReferenceIdeal.Gen Cert.ReferenceIdeal.Read Cert.Fuzzy
open Idealize.ShloMosaic Idealize.ShloMosaic.TcCoe Idealize.ShloMosaic.ValueIdx Idealize.SL.Sem

/-- The reference's table of centres is the table's. -/
theorem centres_eq (w : S16777216x2.Idx → EReal) : val_main_v3 (F := Ideal) w = centres w := rfl

/-- The reference's table of width parameters is the table's. -/
theorem widths_eq (w : S16777216x2.Idx → EReal) : val_main_v5 (F := Ideal) w = widths w := rfl

/-- Row 0 of the batch spread along the sets, read at `(r, k)`: entry `(r, 0)` of the one-column array of values. Both
    are the `r`-th of the 4096 values: the two broadcasts read it at position `r`, and standing the 4096 values up as a
    column puts the `r`-th at row-major position `r · 1 + 0`. -/
theorem spread_apply (x : S32x4096.Idx → EReal) (i : S4096x64.Idx) :
    val_main_v9 (F := Ideal) x i = values x (ix2 (i 0) 0) := by
  rw [val_main_v9_apply, val_main_v8_apply]
  symm
  exact shapeCast_apply (val_main_v7 (F := Ideal) x) (by decide) (ix2 (i 0) 0) (idx_main_v8 (idx_main_v9 i)) (by
    rewrite [Shape.rowMajor_val_one, Shape.rowMajor_val_two]
    show (i 0).val = (i 0).val * 1 + 0
    omega)

/-- The divisor the reference halves by is the literal two, at every entry. -/
theorem divisor_apply (i : S4096x64.Idx) : val_main_v13 (F := Ideal) i = Ideal.ofBits .f32 0x40000000#32 := by
  rw [val_main_v13_apply, val_main_cst_apply]
  rfl

/-- Entry by entry, what the reference exponentiates is the table's degree in its quotient spelling. -/
theorem table_apply (x : S32x4096.Idx → EReal) (w : S16777216x2.Idx → EReal) (i : S4096x64.Idx) :
    val_main_v17 (F := Ideal) x w i = table (values x) (centres w) (widths w) i := by
  unfold table
  rw [member_eq_quotient, ← spread_apply, ← divisor_apply i]
  rfl

/-- The reference's result is the flat table of degrees of its arguments. -/
theorem result_eq (x : S32x4096.Idx → EReal) (w : S16777216x2.Idx → EReal) :
    val_main_v18 (F := Ideal) x w = degrees x w := by
  have h : val_main_v17 (F := Ideal) x w = table (values x) (centres w) (widths w) := funext (table_apply x w)
  unfold val_main_v18 degrees
  rw [h]

/-- THE RUN: every weakly fair execution of the reference terminates with its result at the flat table of degrees of
    its arguments, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = degrees (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v18_eq _ _).trans (result_eq _ _)), (h c).2⟩)
    (Cert.ReferenceIdeal.Value.run (F := Ideal) m ρ)

end Cert.ReferenceIdeal.Whole

end
-- ==== Proof.lean ====
/-
  The kernel program and its reference compute the same table of fuzzy-membership degrees.

  From a batch of feature vectors `x : [32, 4096]` and a parameter array `w : [16777216, 2]` both programs return, flat,
  the `4096 × 64` table whose entry `(r, k)` is `exp (-(x[0, r] - c)² / 2 · s²)`, where `(c, s) = w[64 r + k]` are the centre
  and the width parameter of feature `r`'s `k`-th set. Only row 0 of `x` and the first 262144 rows of `w` are read.

  The kernel program cuts the 4096 features into 8 blocks of 512 rows and computes each block of the table in one step
  of a pipelined region, halving the negated square by a product with `½`; the reference computes the whole table at
  once, halving by a quotient by `2`. On the extended reals the two halvings are one function, at infinite values too,
  so the two results are equal entry by entry and the finiteness of the inputs is never used.

  Both runs are stated at ONE term of the arguments, `Cert.Fuzzy.degrees`: the kernel program's by reading what its
  region writes back step by step and that the 8 blocks tile the table, the reference's by reading its operations entry
  by entry. The idealized kernel is the kernel's own text read over the extended reals: no operation was rewritten, so
  there is nothing to preserve. Each program terminates without a fault and leaves its arguments as they were.
-/
import proofs.«125009_j8658654069382_1_alg».proof.Defs
import proofs.«125009_j8658654069382_1_alg».proof.Proof.Gen.Kernel
import proofs.«125009_j8658654069382_1_alg».proof.Proof.Gen.Kernel.Skeleton
import proofs.«125009_j8658654069382_1_alg».proof.Proof.Gen.Kernel.Launch
import proofs.«125009_j8658654069382_1_alg».proof.Proof.Gen.Kernel.Points
import proofs.«125009_j8658654069382_1_alg».proof.Proof.Gen.Kernel.Frame
import proofs.«125009_j8658654069382_1_alg».proof.Proof.Gen.KernelIdeal
import proofs.«125009_j8658654069382_1_alg».proof.Proof.Gen.KernelIdeal.Skeleton
import proofs.«125009_j8658654069382_1_alg».proof.Proof.Gen.KernelIdeal.Launch
import proofs.«125009_j8658654069382_1_alg».proof.Proof.Gen.KernelIdeal.Points
import proofs.«125009_j8658654069382_1_alg».proof.Proof.Gen.KernelIdeal.Frame
import proofs.«125009_j8658654069382_1_alg».proof.Proof.Gen.ReferenceIdeal
import proofs.«125009_j8658654069382_1_alg».proof.Proof.Gen.Pre_finite_inputs
import proofs.«125009_j8658654069382_1_alg».proof.Proof.Gen.ReferenceIdeal.Run
import proofs.«125009_j8658654069382_1_alg».proof.Proof.Gen.ReferenceIdeal.Read
import proofs.«125009_j8658654069382_1_alg».proof.Proof.KernelRun
import proofs.«125009_j8658654069382_1_alg».proof.Proof.ReferenceRun
import Idealize.ShloMosaic.Adequacy
import Idealize.ShloMosaic.Init

noncomputable section

namespace Cert.Proof

open Idealize.ShloMosaic Idealize.SL.Sem

/-- The kernel program, read bit for bit, terminates without a fault and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run to the flat table, with the result dropped. -/
theorem frame_reference_ideal : Cert.frame_ReferenceIdeal := fun m ρ _ =>
  (θ_run Cert.ReferenceIdeal.defs _ _).mono (fun _ h c => (h c).2) (Cert.ReferenceIdeal.Whole.run m ρ)

/-- No operation of the kernel was rewritten for the reading over the extended reals. -/
theorem preserves : Cert.preserves_Kernel_KernelIdeal := trivial

/-- From memories that agree on the two arguments both programs end with the flat table of degrees of those
    arguments: the kernel program's run and the reference's run are stated at the same term, so once the reference's
    arguments are rewritten to the kernel's the two results are literally one. -/
theorem algebraic : Cert.algebraic_KernelIdeal_ReferenceIdeal := by
  intro m ρ m' ρ' _ hagree
  refine ⟨fun c => Cert.Fuzzy.degrees (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
